-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn {F : FTy → Type} [FloatOps F] (main_arg0 : FVec F S16384x1024 .f32) (main_arg1 : FVec F S1024x1024 .f32) (main_arg2 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  main_v13
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 7
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1x1024, .f32⟩
  | .hbm, ⟨4, _⟩ => ⟨S1024x1024, .f32⟩
  | .hbm, ⟨5, _⟩ => ⟨S1024x1024, .bf16⟩
  | .hbm, ⟨6, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1024_S1x1024 : S1024.ShapeCasts S1x1024
  transposes_S1024x1024_S1024x1024_1_0 : S1024x1024.Transposes [1, 0] S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S16384x1024, .f32⟩
  | .hbm, ⟨4, _⟩ => ⟨S1x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S_, .f32⟩
  | .hbm, ⟨11, _⟩ => ⟨S16384x1024, .f32⟩
  | .hbm, ⟨12, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_call0_cst : Ref sig .tc := ⟨.hbm, 10, rfl⟩
abbrev main_call0_v0 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  bcast_S_S16384x1024 : S_.BroadcastsInDim S16384x1024 (![] : Fin 0 → Fin S16384x1024.rank)
  dot_S16384x1024_S1024x1024_S16384x1024_1_1_0_0_n_n_wf : DotDims.WF S16384x1024 S1024x1024 S16384x1024 [1] [1] [0] [0] [] []

variable [Facts₀]

def dot_S16384x1024_S1024x1024_S16384x1024_1_1_0_0_n_n : DotDims S16384x1024 S1024x1024 S16384x1024 where
  lhsContracting := [1]
  rhsContracting := [1]
  lhsNonContracting := [0]
  rhsNonContracting := [0]
  lhsBatch := []
  rhsBatch := []
  wf := dot_S16384x1024_S1024x1024_S16384x1024_1_1_0_0_n_n_wf

class Facts : Prop extends Facts₀ where

variable [Facts]
-- ==== Proof.Layer.lean ====
/-
  The dense layer both programs compute, as ONE function of the three argument arrays over the extended reals.
  For a row r of x and an output feature o, with c the scale 2^-8 (the f32 word 0x3B800000) and z the zero word,

      layer x W b (r, o) = max (c * ((sum over k < 1024 of x (r, k) * W (o, k)) + b o)) z.

  W is read with the output feature FIRST: the layer multiplies x by the transpose of W. Nothing here depends on
  a program; the two constants stay as their words, the same word on both sides, and are never evaluated.
-/
import Idealize.ShloMosaic.PureOps.Ideal
import Idealize.ShloMosaic.Lib.ValueIdx

noncomputable section

namespace Cert.DenseLayer

open Idealize.ShloMosaic Idealize.ShloMosaic.ValueIdx

/-- The inner product of row `r` of `x` with row `o` of `W`: the (r, o) entry of x times W transposed. -/
def rowDot (x : FVec Ideal ⟨2, ![16384, 1024]⟩ .f32) (W : FVec Ideal ⟨2, ![1024, 1024]⟩ .f32)
    (r : Fin 16384) (o : Fin 1024) : EReal :=
  ∑ k : Fin 1024, x (ix2 r k) * W (ix2 o k)

/-- The layer at an entry: scale the biased inner product by 2^-8 and clamp it below at zero. -/
def layer (x : FVec Ideal ⟨2, ![16384, 1024]⟩ .f32) (W : FVec Ideal ⟨2, ![1024, 1024]⟩ .f32)
    (b : FVec Ideal ⟨1, ![1024]⟩ .f32) : FVec Ideal ⟨2, ![16384, 1024]⟩ .f32 := fun i =>
  max (Ideal.ofBits .f32 0x3B800000#32 * (rowDot x W (i 0) (i 1) + b (ix1 (i 1)))) (Ideal.ofBits .f32 0x00000000#32)

/-- The layer at explicit coordinates. -/
theorem layer_apply (x : FVec Ideal ⟨2, ![16384, 1024]⟩ .f32) (W : FVec Ideal ⟨2, ![1024, 1024]⟩ .f32)
    (b : FVec Ideal ⟨1, ![1024]⟩ .f32) (r : Fin 16384) (o : Fin 1024) :
    layer x W b (ix2 r o)
      = max (Ideal.ofBits .f32 0x3B800000#32 * ((∑ k : Fin 1024, x (ix2 r k) * W (ix2 o k)) + b (ix1 o)))
          (Ideal.ofBits .f32 0x00000000#32) := rfl

end Cert.DenseLayer

end
-- ==== Proof.ReferenceLayer.lean ====
/-
  The reference program computes the dense layer. Its last stage is the maximum of the scaled, biased product with
  the zero array; read at an entry (r, o), stage by stage:
    the product of x with W, both contracted along their second axis, is the sum over k of x (r, k) * W (o, k);
    the bias, broadcast first to one row and then down the 16384 rows, is b o;
    the scale and the zero are scalars broadcast to every entry.
  So the entry is max (c * (sum + b o)) z, which is `layer x W b (r, o)`.
-/
import proofs.«406633_j76759655514823_3_alg».proof.Proof.Gen.ReferenceIdeal.Read
import proofs.«406633_j76759655514823_3_alg».proof.Proof.Layer

noncomputable section

namespace Cert.DenseLayer.Reference

open Cert.ReferenceIdeal Cert.ReferenceIdeal.Read Idealize.ShloMosaic Idealize.ShloMosaic.ValueIdx

/-- The left operand of the product at output entry (r, o) and contraction position k is x at (r, k). -/
theorem left_index (r : Fin 16384) (o k : Fin 1024) : lidx_main_v0 (ix2 r o) k = ix2 r k :=
  funext fun a => Fin.ext (by match a with | ⟨0, _⟩ => rfl | ⟨1, _⟩ => rfl)

/-- The right operand there is W at (o, k): W is contracted along its second axis, so its first is the feature. -/
theorem right_index (r : Fin 16384) (o k : Fin 1024) : ridx_main_v0 (ix2 r o) k = ix2 o k :=
  funext fun a => Fin.ext (by match a with | ⟨0, _⟩ => rfl | ⟨1, _⟩ => rfl)

/-- The bias entry the two broadcasts read at output entry (r, o) is b o. -/
theorem bias_index (r : Fin 16384) (o : Fin 1024) : idx_main_v1 (idx_main_v2 (ix2 r o)) = ix1 o :=
  funext fun a => Fin.ext (by match a with | ⟨0, _⟩ => rfl)

/-- The reference's result, as a function of its three arguments, is the layer. -/
theorem result_eq_layer (x : FVec Ideal S16384x1024 .f32) (W : FVec Ideal S1024x1024 .f32) (b : FVec Ideal S1024 .f32) :
    val_main_v6 (F := Ideal) x W b = Cert.DenseLayer.layer x W b := by
  funext i
  obtain ⟨r, o, rfl⟩ : ∃ (r : Fin 16384) (o : Fin 1024), i = ix2 r o := ⟨i 0, i 1, eq_ix2 i⟩
  rw [Cert.DenseLayer.layer_apply, val_main_v6_apply, val_main_v5_apply, val_main_v4_apply, val_main_cst_apply,
    val_main_v3_apply, val_main_v0_apply, val_main_v2_apply, val_main_v1_apply, val_main_call0_v0_apply,
    val_main_call0_cst_apply]
  simp only [left_index, right_index, bias_index, Ideal.ofBits_def, Ideal.addf_def, Ideal.mulf_def, Ideal.maximumf_def]

end Cert.DenseLayer.Reference

end
-- ==== Proof.BlockProduct.lean ====
/-
  One grid point of the kernel, as arithmetic on the blocks it loads. The body takes a 1024-row block `xb` of x, the
  whole staged weight matrix `wb` (laid out contraction axis first, feature axis second) and the one-row bias `bb`,
  and stores, at row p and feature q of the output block,

      max (c * ((sum over k < 1024 of xb (p, k) * wb (k, q)) + bb (0, q))) z,

  with c the word 0x3B800000 and z the zero word. The narrowing of the x block to bf16 is the identity on exact
  values; the product runs into a zero accumulator, so it is the plain sum; the bias row is repeated down the rows.
-/
import proofs.«406633_j76759655514823_3_alg».proof.Proof.Gen.KernelIdeal.Skeleton
import proofs.«406633_j76759655514823_3_alg».proof.Proof.Layer
import Idealize.ShloMosaic.Lib.ValueIdx
import Idealize.ShloMosaic.Lib.ValueLayout
import Idealize.ShloMosaic.Lib.Pipeline.Value
import Idealize.ShloMosaic.PureOps.Ideal.Laws

noncomputable section

namespace Cert.DenseLayer.Block

open Cert.KernelIdeal Cert.KernelIdeal.Gen Idealize.ShloMosaic Idealize.ShloMosaic.ValueIdx

/-! ## Where the product reads its operands

The product contracts the left operand's second axis with the right operand's first. At output entry `i` and
contraction position `q` the left operand is read at (i 0, q) and the right at (q, i 1). -/

theorem left_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl

theorem left_contracted (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q

theorem right_contracted (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q

theorem right_feature (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-! ## The product at an entry -/

/-- Into the zero accumulator, the product of `a` and `w` at (p, q) is the sum over k of a (p, k) * w (k, q). -/
theorem product_entry (a w : FVec Ideal S1024x1024 .bf16) (p q : Fin 1024) :
    matmul dot_S1024x1024_S1024x1024_S1024x1024_1_0_0_1_n_n none a w (constant (F := Ideal) S1024x1024 .f32 0x00000000#32) (ix2 p q)
      = ∑ k : Fin 1024, a (ix2 p k) * w (ix2 k q) := by
  simp only [matmul]
  rw [Ideal.matmul_constant_zero_apply, ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k := funext fun ax => Fin.ext (by
    match ax with
    | ⟨0, _⟩ => exact left_row _ _
    | ⟨1, _⟩ => exact (left_contracted _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q := funext fun ax => Fin.ext (by
    match ax with
    | ⟨0, _⟩ => exact (right_contracted _ _).trans hk
    | ⟨1, _⟩ => exact right_feature _ _)
  rw [el, er]

/-! ## What the body stores -/

/-- The value the body stores at row p, feature q of the output block, from the three blocks it loaded. -/
theorem stored_entry (xb : Vec Ideal S1024x1024 .f32) (wb : Vec Ideal S1024x1024 .bf16) (bb : Vec Ideal S1x1024 .f32)
    (p q : Fin 1024) :
    k0_pay1 (F := Ideal) xb wb bb (ix2 p q)
      = max (Ideal.ofBits .f32 0x3B800000#32 * ((∑ k : Fin 1024, xb (ix2 p k) * wb (ix2 k q)) + bb (ix2 (0 : Fin 1) q)))
          (Ideal.ofBits .f32 0x00000000#32) := by
  unfold k0_pay1
  rw [maximumf_apply, mulf_apply, broadcast_apply, broadcast_apply, addf_apply, shapeCast_self, shapeCast_self,
    product_entry, broadcastTo_1b_ab_apply]
  simp only [truncf_apply, Ideal.ofBits_def]

/-! ## The stored value is the layer's entry

Suppose the blocks the body loaded come from the arrays this way: the x block's row p is row `i 0` of the array X;
the weights block is the staged weights Wst, which hold W transposed; the bias block is the staged row Bst, which
holds b. Then what the body stores at (p, q), for q the feature `i 1`, is the layer of X, W, b at `i`. -/

theorem stored_is_layer
    (X : FVec Ideal S16384x1024 .f32) (W : FVec Ideal S1024x1024 .f32) (b : FVec Ideal S1024 .f32)
    (Wst : FVec Ideal S1024x1024 .bf16) (Bst : FVec Ideal S1x1024 .f32)
    (hW : ∀ k q : Fin 1024, Wst (ix2 k q) = W (ix2 q k)) (hb : ∀ q : Fin 1024, Bst (ix2 (0 : Fin 1) q) = b (ix1 q))
    (xb : Vec Ideal S1024x1024 .f32) (wb : Vec Ideal S1024x1024 .bf16) (bb : Vec Ideal S1x1024 .f32)
    (i : S16384x1024.Idx) (p q : Fin 1024) (hq : i 1 = q)
    (hx : ∀ k : Fin 1024, xb (ix2 p k) = X (ix2 (i 0) k))
    (hw : ∀ k : Fin 1024, wb (ix2 k q) = Wst (ix2 k q))
    (hbb : bb (ix2 (0 : Fin 1) q) = Bst (ix2 (0 : Fin 1) q)) :
    k0_pay1 (F := Ideal) xb wb bb (ix2 p q) = Cert.DenseLayer.layer X W b i := by
  rw [stored_entry, hbb, hb]
  unfold Cert.DenseLayer.layer Cert.DenseLayer.rowDot
  rw [hq]
  refine congrArg (fun s => max (Ideal.ofBits .f32 0x3B800000#32 * (s + b (ix1 q))) (Ideal.ofBits .f32 0x00000000#32))
    (Finset.sum_congr rfl fun k _ => ?_)
  rw [hx k, hw k, hW k q]

end Cert.DenseLayer.Block

end
-- ==== Proof.StagedOperands.lean ====
/-
  What the kernel's region finds in the two arrays the program prepares before it.
  The weights are transposed and then narrowed to bf16 (the identity on exact values), so the staged weights at
  (k, q), contraction position first and feature second, are W (q, k). The bias is recast from a vector of 1024
  entries to a single row of 1024, so the staged bias at (0, q) is b q.
-/
import proofs.«406633_j76759655514823_3_alg».proof.Proof.Gen.KernelIdeal.Frame
import Idealize.ShloMosaic.Lib.ValueIdx
import Idealize.ShloMosaic.Lib.ValueLayout
import Idealize.ShloMosaic.Lib.StableHlo.Run

noncomputable section

namespace Cert.DenseLayer.Staged

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ)

/-- The staged weights are the transpose of W, narrowed. -/
theorem weights_eq (c : Dev nD) :
    (V m c main_call0_v2 : S1024x1024.Idx → EReal)
      = truncf (F := Ideal) .bf16 (transpose S1024x1024 [1, 0] (m ((c : Thread nD τ).loc main_arg1) : FVec Ideal S1024x1024 .f32) transposes_S1024x1024_S1024x1024_1_0) bitsLt_bf16_f32 := by
  dsimp only [V, hostOps0]; after_results; rfl

/-- At contraction position k and feature q the staged weights hold W (q, k). -/
theorem weights_entry (c : Dev nD) (k q : Fin 1024) :
    (V m c main_call0_v2 : S1024x1024.Idx → EReal) (ix2 k q)
      = (m ((c : Thread nD τ).loc main_arg1) : S1024x1024.Idx → EReal) (ix2 q k) := by
  rw [weights_eq, truncf_apply, transpose_ix2_apply]

/-- The staged bias is b recast to one row. -/
theorem bias_eq (c : Dev nD) :
    (V m c main_call0_v0 : S1x1024.Idx → EReal)
      = shapeCast S1x1024 (m ((c : Thread nD τ).loc main_arg2) : FVec Ideal S1024 .f32) shapeCasts_S1024_S1x1024 := by
  dsimp only [V, hostOps0]; after_results; rfl

/-- At (0, q) the staged bias holds b q. -/
theorem bias_entry (c : Dev nD) (q : Fin 1024) :
    (V m c main_call0_v0 : S1x1024.Idx → EReal) (ix2 (0 : Fin 1) q)
      = (m ((c : Thread nD τ).loc main_arg2) : S1024.Idx → EReal) (ix1 q) := by
  rw [bias_eq, shapeCast_a_1a_apply]

end Cert.DenseLayer.Staged

end
-- ==== Proof.RowBlocks.lean ====
/-
  From the sixteen grid points to the whole output array. Point t handles rows 1024 t .. 1024 t + 1023: it loads
  that block of x, the whole staged weights and the staged bias row, and writes back the same rows of the output.
  Block-local row p of point t is array row 1024 t + p, for x and for the output alike; the weights' and the bias's
  blocks are the whole staged arrays at every point.

  So what point t writes back is exactly the rows 1024 t .. 1024 t + 1023 of `layer x W b` of the three argument
  arrays. The sixteen blocks tile the 16384 rows (row r lies in block r / 1024), hence after the run the output
  array IS `layer x W b`.
-/
import proofs.«406633_j76759655514823_3_alg».proof.Proof.Gen.KernelIdeal.Value
import proofs.«406633_j76759655514823_3_alg».proof.Proof.Layer
import proofs.«406633_j76759655514823_3_alg».proof.Proof.BlockProduct
import proofs.«406633_j76759655514823_3_alg».proof.Proof.StagedOperands

set_option maxRecDepth 16384

noncomputable section

namespace Cert.DenseLayer.Kernel

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's loads and its store start at the origin of their staging buffers. -/
theorem origin : (![0, 0] : Fin 2 → Nat) = fun _ => 0 := funext fun a => by fin_cases a <;> rfl

/-- The layer of the three argument arrays as launched on core `c`. -/
abbrev result (c : Dev nD) : FVec Ideal S16384x1024 .f32 :=
  Cert.DenseLayer.layer (m ((c : Thread nD τ).loc main_arg0)) (m ((c : Thread nD τ).loc main_arg1)) (m ((c : Thread nD τ).loc main_arg2))

/-- The block indices of the four windows, decided over the sixteen points: x and the output sit at row block t,
    column block 0; the staged weights and bias are always at block (0, 0). -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

set_option maxHeartbeats 1000000 in
/-- WHAT POINT t WRITES BACK is block t of the layer of the argument arrays. -/
theorem flushed_eq (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S1024x1024) origin, View.ld_unit_zero (S := S1x1024) origin]
  obtain ⟨e0, e1, e2, e3, e4, e5, e6, e7⟩ := block_indices t
  funext j
  obtain ⟨p, q, rfl⟩ : ∃ (p q : Fin 1024), j = ix2 p q := ⟨j 0, j 1, eq_ix2 j⟩
  show k0_pay1 (F := Ideal) (iblk m c 0 t) (iblk m c 1 t) (iblk m c 2 t) (ix2 p q)
    = result m c (((cfg0.win 3).blk t).view.emb (ix2 p q))
  refine Cert.DenseLayer.Block.stored_is_layer
    (m ((c : Thread nD τ).loc main_arg0)) (m ((c : Thread nD τ).loc main_arg1)) (m ((c : Thread nD τ).loc main_arg2))
    (V m c main_call0_v2) (V m c main_call0_v0)
    (Cert.DenseLayer.Staged.weights_entry m c) (Cert.DenseLayer.Staged.bias_entry m c)
    (iblk m c 0 t) (iblk m c 1 t) (iblk m c 2 t) (((cfg0.win 3).blk t).view.emb (ix2 p q)) p q ?_ ?_ ?_ ?_
  · exact Fin.ext (by show win0_3.index t (1 : Fin 2) * 1024 + 1 * q.val = q.val; omega)
  · intro k
    show V m c main_arg0 (((cfg0.win 0).blk t).view.emb (ix2 p k)) = _
    rw [V_main_arg0]
    refine congrArg _ (funext fun a => Fin.ext ?_)
    match a with
    | ⟨0, _⟩ => show win0_0.index t (0 : Fin 2) * 1024 + 1 * p.val = win0_3.index t (0 : Fin 2) * 1024 + 1 * p.val; omega
    | ⟨1, _⟩ => show win0_0.index t (1 : Fin 2) * 1024 + 1 * k.val = k.val; omega
  · intro k
    show V m c main_call0_v2 (((cfg0.win 1).blk t).view.emb (ix2 k q)) = _
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * q.val = q.val; omega
  · show V m c main_call0_v0 (((cfg0.win 2).blk t).view.emb (ix2 (0 : Fin 1) q)) = _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * q.val = q.val; omega

/-- An array index lies in point t's block iff its row is one of the block's 1024 rows. -/
theorem mem_block (t : Fin cfg0.N) (i : S16384x1024.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v0).slice (win0_3.rect t)).set ↔ _
  rw [View.set_slice_whole, Rect.mem_set_unit]
  exact Iff.rfl

/-- Every output entry is written by some point: row r by point r / 1024. -/
theorem covered (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  refine ⟨⟨(i 0).val / 1024, by rw [hN]; omega⟩, flush0_3 _, ?_⟩
  rw [mem_block]
  obtain ⟨e0, e1, e2, e3, e4, e5, e6, e7⟩ := block_indices ⟨(i 0).val / 1024, by rw [hN]; omega⟩
  intro a
  match a with
  | ⟨0, _⟩ =>
    show win0_3.index _ (0 : Fin 2) * 1024 ≤ (i 0).val ∧ (i 0).val < win0_3.index _ (0 : Fin 2) * 1024 + 1024
    rw [e6]; show (i 0).val / 1024 * 1024 ≤ (i 0).val ∧ (i 0).val < (i 0).val / 1024 * 1024 + 1024; omega
  | ⟨1, _⟩ =>
    show win0_3.index _ (1 : Fin 2) * 1024 ≤ (i 1).val ∧ (i 1).val < win0_3.index _ (1 : Fin 2) * 1024 + 1024
    rw [e7]; omega

/-- THE OUTPUT ARRAY after the run is the layer of the argument arrays. -/
theorem final (c : Dev nD) : (dats m 0 c).arrAt 3 cfg0.N = result m c :=
  (dats m 0 c).arrAt_eq_of_cover 3 (result m c) (fun t _ => flushed_eq m c t) covered

/-- The kernel's run, read: the output array ends at the layer of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.DenseLayer.Kernel

end
-- ==== Proof.lean ====
/- The proof of `Cert.Claim` (proofs.«406633_j76759655514823_3_alg».proof.Defs).

   Both programs compute one dense layer of x : [16384, 1024], W : [1024, 1024], b : [1024]: at row r and output
   feature o,

       max (c * ((sum over k < 1024 of x (r, k) * W (o, k)) + b o)) 0,     c = 2^-8,

   the word of c and the zero word being the same on both sides (Proof/Layer.lean states this function once).

   The kernel walks the 16384 rows in sixteen blocks of 1024. Before its region the program transposes W and recasts
   b to one row (Proof/StagedOperands.lean: the staged weights at (k, q) are W (q, k), the staged bias at (0, q) is
   b q); at each point the body multiplies the row block of x by the staged weights into a zero accumulator, adds
   the bias row, scales and clamps (Proof/BlockProduct.lean: the stored value at an entry, the product as a sum over
   the contraction position); and the sixteen written blocks tile the output (Proof/RowBlocks.lean), so the output
   array ends at the layer of the argument arrays. Narrowing to bf16 is the identity on exact values.

   The reference contracts x and W along their second axes, adds b broadcast down the rows, scales and takes the
   maximum with zero: read stage by stage at an entry it is the same function (Proof/ReferenceLayer.lean).

   Only that a product into a zero accumulator is the plain sum is used of the extended reals; no law that fails at
   an infinity is needed, so the finiteness of the inputs is never opened. The three frames are the generated frame
   runs; the idealization rewrote no operation, so there is nothing to preserve. -/
import proofs.«406633_j76759655514823_3_alg».proof.Defs
import proofs.«406633_j76759655514823_3_alg».proof.Proof.Gen.Kernel
import proofs.«406633_j76759655514823_3_alg».proof.Proof.Gen.Kernel.Skeleton
import proofs.«406633_j76759655514823_3_alg».proof.Proof.Gen.Kernel.Launch
import proofs.«406633_j76759655514823_3_alg».proof.Proof.Gen.Kernel.Points
import proofs.«406633_j76759655514823_3_alg».proof.Proof.Gen.Kernel.Frame
import proofs.«406633_j76759655514823_3_alg».proof.Proof.Gen.KernelIdeal
import proofs.«406633_j76759655514823_3_alg».proof.Proof.Gen.KernelIdeal.Skeleton
import proofs.«406633_j76759655514823_3_alg».proof.Proof.Gen.KernelIdeal.Launch
import proofs.«406633_j76759655514823_3_alg».proof.Proof.Gen.KernelIdeal.Points
import proofs.«406633_j76759655514823_3_alg».proof.Proof.Gen.KernelIdeal.Frame
import proofs.«406633_j76759655514823_3_alg».proof.Proof.Gen.ReferenceIdeal
import proofs.«406633_j76759655514823_3_alg».proof.Proof.Gen.Pre_finite_inputs
import proofs.«406633_j76759655514823_3_alg».proof.Proof.Gen.KernelIdeal.Value
import proofs.«406633_j76759655514823_3_alg».proof.Proof.Gen.ReferenceIdeal.Run
import proofs.«406633_j76759655514823_3_alg».proof.Proof.Gen.ReferenceIdeal.Read
import proofs.«406633_j76759655514823_3_alg».proof.Proof.Layer
import proofs.«406633_j76759655514823_3_alg».proof.Proof.ReferenceLayer
import proofs.«406633_j76759655514823_3_alg».proof.Proof.RowBlocks
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as launched: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the kernel's output array ends at the layer of its arguments (Proof/RowBlocks.lean) and
    the reference's result at the layer of its own (Proof/ReferenceLayer.lean); the arguments agree. -/
theorem algebraic : Cert.algebraic_KernelIdeal_ReferenceIdeal := by
  intro m ρ m' ρ' _ hagree
  refine ⟨fun c => Cert.DenseLayer.Kernel.result m c, Cert.DenseLayer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.DenseLayer.Reference.result_eq_layer,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
